-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100x2048x512 : Shape := ⟨3, ![100, 2048, 512]⟩
abbrev S_ : Shape := ⟨0, ![]⟩

class Facts : Prop where
  bcast_S_S100x2048x512 : S_.BroadcastsInDim S100x2048x512 (![] : Fin 0 → Fin S100x2048x512.rank)
  reducesTo_S100x2048x512_S_d0_1_2 : S100x2048x512.ReducesTo [0, 1, 2] S_
  h_S_ : 0 < S_.numel

variable [Facts]

def fn {F : FTy → Type} [FloatOps F] (main_arg0 : FVec F S100x2048x512 .f32) (main_arg1 : FVec F S100x2048x512 .f32) : IVec S_ 1 :=
  let main_v0 : FVec F S100x2048x512 .f32 := Host.absf main_arg0
  let main_cst : FVec F S_ .f32 := constant S_ .f32 0x7F800000#32
  let main_v1 : FVec F S100x2048x512 .f32 := broadcastInDim S100x2048x512 ![] bcast_S_S100x2048x512 main_cst
  let main_v2 : IVec S100x2048x512 1 := cmpf .olt main_v0 main_v1
  let main_c : IVec S_ 1 := constantI S_ 1 1#1
  let main_v3 : IVec S_ 1 := (fun x v => Host.reduce IntOp.andi x v reducesTo_S100x2048x512_S_d0_1_2 h_S_) main_v2 main_c
  let main_v4 : FVec F S100x2048x512 .f32 := Host.absf main_arg1
  let main_cst_0 : FVec F S_ .f32 := constant S_ .f32 0x7F800000#32
  let main_v5 : FVec F S100x2048x512 .f32 := broadcastInDim S100x2048x512 ![] bcast_S_S100x2048x512 main_cst_0
  let main_v6 : IVec S100x2048x512 1 := cmpf .olt main_v4 main_v5
  let main_c_1 : IVec S_ 1 := constantI S_ 1 1#1
  let main_v7 : IVec S_ 1 := (fun x v => Host.reduce IntOp.andi x v reducesTo_S100x2048x512_S_d0_1_2 h_S_) main_v6 main_c_1
  let main_v8 : IVec S_ 1 := andi main_v3 main_v7
  main_v8
-- ==== Kernel.lean ====
abbrev S100x2048x512 : Shape := ⟨3, ![100, 2048, 512]⟩
abbrev S204800x512 : Shape := ⟨2, ![204800, 512]⟩
abbrev S3200x512 : Shape := ⟨2, ![3200, 512]⟩

abbrev nBuf : Space → Nat
  | .hbm => 6
  | .vmem => 6
  | .smem => 0
  | _ => 0

abbrev bufTy : (tb : Table) → Fin (tcTables nBuf tb) → BufTy
  | .hbm, ⟨0, _⟩ => ⟨S100x2048x512, .f32⟩
  | .hbm, ⟨1, _⟩ => ⟨S100x2048x512, .f32⟩
  | .hbm, ⟨2, _⟩ => ⟨S204800x512, .f32⟩
  | .hbm, ⟨3, _⟩ => ⟨S204800x512, .f32⟩
  | .hbm, ⟨4, _⟩ => ⟨S204800x512, .f32⟩
  | .hbm, ⟨5, _⟩ => ⟨S100x2048x512, .f32⟩
  | .local _ .vmem, ⟨0, _⟩ => ⟨S3200x512, .f32⟩
  | .local _ .vmem, ⟨1, _⟩ => ⟨S3200x512, .f32⟩
  | .local _ .vmem, ⟨2, _⟩ => ⟨S3200x512, .f32⟩
  | .local _ .vmem, ⟨3, _⟩ => ⟨S3200x512, .f32⟩
  | .local _ .vmem, ⟨4, _⟩ => ⟨S3200x512, .f32⟩
  | .local _ .vmem, ⟨5, _⟩ => ⟨S3200x512, .f32⟩
  | _, _ => ⟨S100x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S100x2048x512_S204800x512 : S100x2048x512.ShapeCasts S204800x512
  inb_S3200x512_S3200x512_0_0 : ∀ a, (![0, 0] : Fin 2 → Nat) a + S3200x512.size a ≤ S3200x512.size a
  h_S3200x512 : 0 < S3200x512.numel
  shapeCasts_S3200x512_S3200x512 : S3200x512.ShapeCasts S3200x512
  shapeCasts_S204800x512_S100x2048x512 : S204800x512.ShapeCasts S100x2048x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x512.size a ≤ S204800x512.size a
  hwx0_0 : ∀ i : grid0.Coords, EltTy.bits .f32 = 32 ∨ (Rect.block (s := S204800x512) S3200x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x512.size a ≤ S204800x512.size a
  hwx0_1 : ∀ i : grid0.Coords, EltTy.bits .f32 = 32 ∨ (Rect.block (s := S204800x512) S3200x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x512.size a ≤ S204800x512.size a
  hwx0_2 : ∀ i : grid0.Coords, EltTy.bits .f32 = 32 ∨ (Rect.block (s := S204800x512) S3200x512.size (cc0_transform_2 i) (hinb0_2 i)).WholeWords (EltTy.packing .f32)

variable [Facts₀]

abbrev win0_0 : Pipeline.Window sig grid0 :=
  Pipeline.Window.ofSpec (Memref.whole main_v0) S3200x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3200x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3200x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S100x2048x512 : Shape := ⟨3, ![100, 2048, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S100x2048x512, .f32⟩
  | .hbm, ⟨1, _⟩ => ⟨S100x2048x512, .f32⟩
  | .hbm, ⟨2, _⟩ => ⟨S_, .f32⟩
  | .hbm, ⟨3, _⟩ => ⟨S100x2048x512, .f32⟩
  | .hbm, ⟨4, _⟩ => ⟨S100x2048x512, .f32⟩
  | .hbm, ⟨5, _⟩ => ⟨S_, .f32⟩
  | .hbm, ⟨6, _⟩ => ⟨S100x2048x512, .f32⟩
  | .hbm, ⟨7, _⟩ => ⟨S100x2048x512, .f32⟩
  | .hbm, ⟨8, _⟩ => ⟨S100x2048x512, .f32⟩
  | _, _ => ⟨S100x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S_S100x2048x512 : S_.BroadcastsInDim S100x2048x512 (![] : Fin 0 → Fin S100x2048x512.rank)

variable [Facts₀]

class Facts : Prop extends Facts₀ where

variable [Facts]
-- ==== Proof.Fma.lean ====
/-
  The one function both programs compute: entry by entry, `2 · t + 99 · f` — the product of the first
  constant with the tangent's entry, plus the product of the second constant with the base array's entry,
  in that order of operations. It is stated over ANY shape, because the kernel computes it on the arrays
  flattened to two axes and the reference on the arrays as given: a pointwise function commutes with
  reading through a reshape, and a reshape there and back is the identity, so the flattened computation
  reshaped back is the computation on the original arrays. No law of arithmetic is used: the two sides
  apply the same operations to the same entries, and only the position bookkeeping differs.
-/
import Idealize.ShloMosaic.Lib.Pipeline.Value

noncomputable section

namespace Cert.Fma

open Idealize.ShloMosaic

variable {F : FTy → Type} [FloatOps F]

/-- `2 · t + 99 · f`, entry by entry, over any shape; the two constants are kept as their binary words
    (the same words in both programs, so they are never evaluated). -/
def fma {s : Shape} (f t : s.Idx → F .f32) : s.Idx → F .f32 := fun i =>
  FloatOps.addf (FloatOps.mulf (FloatOps.ofBits .f32 0x40000000#32) (t i))
    (FloatOps.mulf (FloatOps.ofBits .f32 0x42C60000#32) (f i))

/-- Reading the pointwise combination through a reshape is combining the reshaped operands: both sides
    read the operands at the one position the reshape assigns to the index. -/
theorem fma_shapeCast {s u : Shape} (f t : s.Idx → F .f32) (h : s.ShapeCasts u) :
    shapeCast u (fma f t) h = fma (shapeCast u f h) (shapeCast u t h) := rfl

/-- Flatten both operands, combine, and restore the shape: the combination of the operands themselves. -/
theorem fma_roundtrip {s u : Shape} (f t : s.Idx → F .f32) (h : s.ShapeCasts u) (h' : u.ShapeCasts s) :
    shapeCast s (fma (shapeCast u f h) (shapeCast u t h)) h' = fma f t := by
  rw [fma_shapeCast, shapeCast_shapeCast, shapeCast_shapeCast]

end Cert.Fma

end
-- ==== Proof.KernelBlocks.lean ====
/-
  What the kernel's one region leaves in its output array, on the arrays flattened to [204800, 512].
  The grid has 64 points; at point `t` each of the three windows is at block `(t, 0)` of its array, a
  block of 3200 rows by all 512 columns. The body loads the two input blocks whole, forms
  `2 · t + 99 · f` entry by entry, and stores the result over the whole output block. So what point `t`
  writes back is block `t` of ONE function of the two input arrays (the pointwise combination), and
  since row `r` lies in block `r / 3200`, the 64 blocks cover the array: after the run the output array
  is that function everywhere.
-/
import proofs.«414190_j91070486545038_3_alg».proof.Proof.Gen.KernelIdeal.Frame
import proofs.«414190_j91070486545038_3_alg».proof.Proof.Fma
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's loads and its store start at the block's origin. -/
theorem origin : (![0, 0] : Fin 2 → Nat) = fun _ => 0 := funext fun a => by fin_cases a <;> rfl

/-- The pointwise combination on the flattened arrays. -/
abbrev flat (f t : S204800x512.Idx → Elt F .f32) : S204800x512.Idx → Elt F .f32 := Cert.Fma.fma f t

/-- The stored value is the pointwise combination of the two loaded blocks: the body's shape casts are
    between equal shapes, and its two splats hold their constant at every entry. -/
theorem payload_eq (t f : Vec F S3200x512 .f32) : k0_pay1 t f = Cert.Fma.fma f t := by
  unfold k0_pay1
  simp only [shapeCast_self]
  rfl

/-- The printed index maps over the 64 points: all three windows are at the same block, on column block 0. -/
theorem block_index : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every row block is some point's. -/
theorem block_onto : ∀ q : Fin 64, ∃ t : Fin cfg0.N, win0_2.index t = ![q.val, 0] :=
  (by decide +kernel : ∀ q : Fin 64, ∃ t : Fin grid0.N, win0_2.index t = ![q.val, 0])

/-- What point `t` writes back is block `t` of the pointwise combination of the two input arrays as the
    region finds them: each input block is its array read where the output's block lies. -/
theorem flushed_eq (c : Dev nD) (t : Fin cfg0.N) :
    (dats m 0 c).flushed 2 t = ((cfg0.win 2).blk t).view.read (Elt F) (flat (V m c main_v0) (V m c main_v1)) := by
  show (cfg0.win 2).cut (grid0.coords t) ((dats m 0 c).after 2 t) = _
  rw [after0_2]
  unfold out0_2
  rw [View.canon_unit_zero origin]
  simp only [View.ld_unit_zero (S := S3200x512) origin]
  rw [payload_eq]
  obtain ⟨e0, e1, e2, e3⟩ := block_index t
  funext j
  show FloatOps.addf (FloatOps.mulf (FloatOps.ofBits .f32 0x40000000#32) (V m c main_v1 (((cfg0.win 1).blk t).view.emb j)))
      (FloatOps.mulf (FloatOps.ofBits .f32 0x42C60000#32) (V m c main_v0 (((cfg0.win 0).blk t).view.emb j)))
    = FloatOps.addf (FloatOps.mulf (FloatOps.ofBits .f32 0x40000000#32) (V m c main_v1 (((cfg0.win 2).blk t).view.emb j)))
      (FloatOps.mulf (FloatOps.ofBits .f32 0x42C60000#32) (V m c main_v0 (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 3200 + 1 * (j 0).val = win0_2.index t (0 : Fin 2) * 3200 + 1 * (j 0).val; omega
    | ⟨1, _⟩ => show win0_0.index t (1 : Fin 2) * 512 + 1 * (j 1).val = win0_2.index t (1 : Fin 2) * 512 + 1 * (j 1).val; omega
  have h1 : ((cfg0.win 1).blk t).view.emb j = ((cfg0.win 2).blk t).view.emb j := by
    funext a; apply Fin.ext
    match a with
    | ⟨0, _⟩ => show win0_1.index t (0 : Fin 2) * 3200 + 1 * (j 0).val = win0_2.index t (0 : Fin 2) * 3200 + 1 * (j 0).val; omega
    | ⟨1, _⟩ => show win0_1.index t (1 : Fin 2) * 512 + 1 * (j 1).val = win0_2.index t (1 : Fin 2) * 512 + 1 * (j 1).val; omega
  rw [h0, h1]

/-- An index of the output array is in point `t`'s block iff each coordinate is in the block's range. -/
theorem mem_blk (t : Fin cfg0.N) (i : S204800x512.Idx) :
    i ∈ ((cfg0.win 2).blk t).view.set ↔ ∀ a : Fin 2, win0_2.index t a * S3200x512.size a ≤ (i a).val ∧ (i a).val < win0_2.index t a * S3200x512.size a + S3200x512.size a := by
  show i ∈ ((View.whole main_v2).slice (win0_2.rect t)).set ↔ _
  rw [View.set_slice_whole, Rect.mem_set_unit]
  exact Iff.rfl

/-- Every index is in the block of the point whose row block is the index's row divided by 3200. -/
theorem cover (i : S204800x512.Idx) :
    ∃ t : Fin cfg0.N, (cfg0.win 2).flush t = true ∧ i ∈ ((cfg0.win 2).blk t).view.set := by
  have hi0 : (i 0).val < 204800 := (i 0).isLt
  have hi1 : (i 1).val < 512 := (i 1).isLt
  obtain ⟨t, ht⟩ := block_onto ⟨(i 0).val / 3200, by omega⟩
  have q0 : win0_2.index t (0 : Fin 2) = (i 0).val / 3200 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 3200 ≤ (i 0).val ∧ (i 0).val < win0_2.index t (0 : Fin 2) * 3200 + 3200; omega
  | ⟨1, _⟩ => show win0_2.index t (1 : Fin 2) * 512 ≤ (i 1).val ∧ (i 1).val < win0_2.index t (1 : Fin 2) * 512 + 512; omega

/-- The output array after the run is the pointwise combination of the two input arrays as the region
    finds them. -/
theorem final (c : Dev nD) :
    (dats m 0 c).arrAt 2 cfg0.N = flat (V m c main_v0) (V m c main_v1) :=
  (dats m 0 c).arrAt_eq_of_cover 2 _ (fun t _ => flushed_eq m c t) cover

end Cert.KernelIdeal.Blocks

end
-- ==== Proof.KernelRun.lean ====
/-
  The kernel's whole program around its region. Before the region the host flattens each argument from
  [100, 2048, 512] to [204800, 512] (the leading two axes merged, row-major), and copies the flattened
  base array into the buffer the region's output window overwrites. The region leaves the pointwise
  combination `2 · t + 99 · f` of the two flattened arrays in that buffer (every block of it is written).
  After the region the host restores the shape [100, 2048, 512]. A pointwise combination commutes with a
  reshape and the reshape there and back is the identity, so the program's result is the pointwise
  combination of the arguments themselves; the arguments are never written.
-/
import proofs.«414190_j91070486545038_3_alg».proof.Proof.KernelBlocks
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The array the region's first window reads is the base argument flattened. -/
theorem V_flat0 (c : Dev nD) : (V m c main_v0 : S204800x512.Idx → Elt F .f32)
    = shapeCast S204800x512 (m ((c : Thread nD τ).loc main_arg0) : S100x2048x512.Idx → Elt F .f32)
        Facts₀.shapeCasts_S100x2048x512_S204800x512 := by
  show StableHlo.after hostOps0 (fun b => m (c, b)) (Proc.devRef .tc main_v0) = _
  after_results
  rfl

/-- The array its second window reads is the tangent argument flattened. -/
theorem V_flat1 (c : Dev nD) : (V m c main_v1 : S204800x512.Idx → Elt F .f32)
    = shapeCast S204800x512 (m ((c : Thread nD τ).loc main_arg1) : S100x2048x512.Idx → Elt F .f32)
        Facts₀.shapeCasts_S100x2048x512_S204800x512 := by
  show StableHlo.after hostOps0 (fun b => m (c, b)) (Proc.devRef .tc main_v1) = _
  after_results
  rfl

/-- The output window's buffer, as the host operations after the region find it: the pointwise
    combination of the two flattened arguments. -/
theorem region_out (c : Dev nD) :
    Pipeline.withArrays (cfgs 0).spec c (V0 m c) (fun w => (dats m 0 c).arrAt w (cfgs 0).N) (Proc.devRef .tc main_v2)
    = Blocks.flat (V m c main_v0) (V m c main_v1) :=
  (Pipeline.withArrays_arr spec0 launch0.win.arr_inj c _ _ 2).trans (Blocks.final m c)

/-- The program's result after the closing reshape: the pointwise combination of the two arguments. -/
theorem tail_eq (c : Dev nD) :
    (Pipeline.afterTail₀ cfgs (dats m) 0 (V0 m) [hostOps1] c main_v3 : S100x2048x512.Idx → Elt F .f32)
    = Cert.Fma.fma (m ((c : Thread nD τ).loc main_arg0)) (m ((c : Thread nD τ).loc main_arg1)) := by
  unfold Pipeline.afterTail₀
  show StableHlo.after hostOps1 _ (Proc.devRef .tc main_v3) = _
  after_results
  rw [region_out, V_flat0, V_flat1]
  exact Cert.Fma.fma_roundtrip _ _ _ _

/-- Every weakly fair execution of the kernel's program terminates with its result at the pointwise
    combination of the arguments, and the arguments as launched. -/
theorem run : θ_run defs (onTc (τ := τ) (main (F := F))) ⟨m, fun _ => 0, ρ⟩ fun r => ∀ c : Dev nD,
      r.2.mem ((c.tc : Thread nD τ).loc main_v3)
        = Cert.Fma.fma (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Result

end
-- ==== Proof.RefValue.lean ====
/-
  The reference's result, read off its run: the sum of the two products, each constant broadcast from a
  rank-0 array over the whole shape. A broadcast of a rank-0 constant holds that constant at every index,
  so index by index this is `2 · t + 99 · f` with the operations in the order of `Cert.Fma.fma`.
-/
import proofs.«414190_j91070486545038_3_alg».proof.Proof.Gen.ReferenceIdeal.Run
import proofs.«414190_j91070486545038_3_alg».proof.Proof.Fma

noncomputable section

namespace Cert.ReferenceIdeal.RefValue

open Cert.ReferenceIdeal Idealize.ShloMosaic

variable {F : FTy → Type} [FloatOps F]

/-- The reference's composed term is the pointwise combination of its two arguments: each broadcast
    constant reads its one entry wherever it is indexed. -/
theorem result_eq (h : S_.BroadcastsInDim S100x2048x512 (![] : Fin 0 → Fin S100x2048x512.rank))
    (f t : S100x2048x512.Idx → F .f32) :
    addf (mulf (broadcastInDim S100x2048x512 ![] h (constant S_ .f32 0x40000000#32)) t)
      (mulf (broadcastInDim S100x2048x512 ![] h (constant S_ .f32 0x42C60000#32)) f)
    = Cert.Fma.fma f t := rfl

end Cert.ReferenceIdeal.RefValue

end
-- ==== Proof.lean ====
/-
  The kernel computes, entry by entry over two f32 arrays of shape [100, 2048, 512], `2 · t + 99 · f`
  (t the tangent array, f the base array): it flattens both arrays to [204800, 512], runs one region
  over 64 blocks of 3200 rows that forms the sum of the two products on each block, and restores the
  shape. The reference forms the same sum of the same two products on the arrays as given. The two
  constants are the same binary words on both sides and the operations are applied in the same order
  to the same entries, so at the exact instance the two results agree entry by entry with no law of
  arithmetic and no use of the inputs' finiteness: what is proved is position bookkeeping — each
  block the region writes is a block of one pointwise function, the blocks cover the flattened array,
  and a pointwise function commutes with the reshape, which there and back is the identity.
  The three frames are the generated ones (the reference's is its generated run with the result
  dropped); the idealization rewrote nothing, so its conjunct is trivial.
-/
import proofs.«414190_j91070486545038_3_alg».proof.Defs
import proofs.«414190_j91070486545038_3_alg».proof.Proof.Gen.Kernel
import proofs.«414190_j91070486545038_3_alg».proof.Proof.Gen.Kernel.Skeleton
import proofs.«414190_j91070486545038_3_alg».proof.Proof.Gen.Kernel.Launch
import proofs.«414190_j91070486545038_3_alg».proof.Proof.Gen.Kernel.Points
import proofs.«414190_j91070486545038_3_alg».proof.Proof.Gen.Kernel.Frame
import proofs.«414190_j91070486545038_3_alg».proof.Proof.Gen.KernelIdeal
import proofs.«414190_j91070486545038_3_alg».proof.Proof.Gen.KernelIdeal.Skeleton
import proofs.«414190_j91070486545038_3_alg».proof.Proof.Gen.KernelIdeal.Launch
import proofs.«414190_j91070486545038_3_alg».proof.Proof.Gen.KernelIdeal.Points
import proofs.«414190_j91070486545038_3_alg».proof.Proof.Gen.KernelIdeal.Frame
import proofs.«414190_j91070486545038_3_alg».proof.Proof.Gen.ReferenceIdeal
import proofs.«414190_j91070486545038_3_alg».proof.Proof.Gen.ReferenceIdeal.Run
import proofs.«414190_j91070486545038_3_alg».proof.Proof.Gen.Pre_finite_inputs
import proofs.«414190_j91070486545038_3_alg».proof.Proof.Fma
import proofs.«414190_j91070486545038_3_alg».proof.Proof.KernelBlocks
import proofs.«414190_j91070486545038_3_alg».proof.Proof.KernelRun
import proofs.«414190_j91070486545038_3_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read at the exact instance. -/
theorem frame_kernelIdeal : Cert.frame_KernelIdeal := fun m ρ _ => Cert.KernelIdeal.Gen.frame m ρ

/-- The reference runs and leaves its arguments as launched: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the two arguments both programs end with `2 · t + 99 · f` entry by entry:
    the kernel through its flattened region (`Result.run`), the reference by its composed term
    (`RefValue.result_eq`) rewritten along the agreement. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
